-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S_ : Shape := ⟨0, ![]⟩

class Facts : Prop where
  bcast_S_S32768x8x256 : S_.BroadcastsInDim S32768x8x256 (![] : Fin 0 → Fin S32768x8x256.rank)
  reducesTo_S32768x8x256_S_d0_1_2 : S32768x8x256.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S1x768 : S_.BroadcastsInDim S1x768 (![] : Fin 0 → Fin S1x768.rank)
  reducesTo_S1x768_S_d0_1 : S1x768.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32768x8x256 .f32) (main_arg1 : FVec F S32768x8x256 .f32) (main_arg2 : FVec F S768x512 .f32) (main_arg3 : FVec F S1x768 .f32) (main_arg4 : FVec F S256x512 .f32) (main_arg5 : FVec F S256 .f32) : IVec S_ 1 :=
  let main_v0 : FVec F S32768x8x256 .f32 := Host.absf main_arg0
  let main_cst : FVec F S_ .f32 := constant S_ .f32 0x7F800000#32
  let main_v1 : FVec F S32768x8x256 .f32 := broadcastInDim S32768x8x256 ![] bcast_S_S32768x8x256 main_cst
  let main_v2 : IVec S32768x8x256 1 := cmpf .olt main_v0 main_v1
  let main_c : IVec S_ 1 := constantI S_ 1 1#1
  let main_v3 : IVec S_ 1 := (fun x v => Host.reduce IntOp.andi x v reducesTo_S32768x8x256_S_d0_1_2 h_S_) main_v2 main_c
  let main_v4 : FVec F S32768x8x256 .f32 := Host.absf main_arg1
  let main_cst_0 : FVec F S_ .f32 := constant S_ .f32 0x7F800000#32
  let main_v5 : FVec F S32768x8x256 .f32 := broadcastInDim S32768x8x256 ![] bcast_S_S32768x8x256 main_cst_0
  let main_v6 : IVec S32768x8x256 1 := cmpf .olt main_v4 main_v5
  let main_c_1 : IVec S_ 1 := constantI S_ 1 1#1
  let main_v7 : IVec S_ 1 := (fun x v => Host.reduce IntOp.andi x v reducesTo_S32768x8x256_S_d0_1_2 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_arg5 main_v13 main_v16
-- ==== Kernel.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S512x256 : Shape := ⟨2, ![512, 256]⟩
abbrev S512x768 : Shape := ⟨2, ![512, 768]⟩
abbrev S32768x512 : Shape := ⟨2, ![32768, 512]⟩
abbrev S512x8x256 : Shape := ⟨3, ![512, 8, 256]⟩
abbrev S512x512 : Shape := ⟨2, ![512, 512]⟩
abbrev S1x256 : Shape := ⟨2, ![1, 256]⟩

abbrev nBuf : Space → Nat
  | .hbm => 11
  | .vmem => 10
  | .smem => 0
  | _ => 0

abbrev bufTy : (tb : Table) → Fin (tcTables nBuf tb) → BufTy
  | .hbm, ⟨0, _⟩ => ⟨S32768x8x256, .f32⟩
  | .hbm, ⟨1, _⟩ => ⟨S32768x8x256, .f32⟩
  | .hbm, ⟨2, _⟩ => ⟨S768x512, .f32⟩
  | .hbm, ⟨3, _⟩ => ⟨S1x768, .f32⟩
  | .hbm, ⟨4, _⟩ => ⟨S256x512, .f32⟩
  | .hbm, ⟨5, _⟩ => ⟨S256, .f32⟩
  | .hbm, ⟨6, _⟩ => ⟨S512x256, .f32⟩
  | .hbm, ⟨7, _⟩ => ⟨S512x256, .bf16⟩
  | .hbm, ⟨8, _⟩ => ⟨S512x768, .f32⟩
  | .hbm, ⟨9, _⟩ => ⟨S512x768, .bf16⟩
  | .hbm, ⟨10, _⟩ => ⟨S32768x512, .f32⟩
  | .local _ .vmem, ⟨0, _⟩ => ⟨S512x8x256, .f32⟩
  | .local _ .vmem, ⟨1, _⟩ => ⟨S512x8x256, .f32⟩
  | .local _ .vmem, ⟨2, _⟩ => ⟨S512x8x256, .f32⟩
  | .local _ .vmem, ⟨3, _⟩ => ⟨S512x8x256, .f32⟩
  | .local _ .vmem, ⟨4, _⟩ => ⟨S512x256, .bf16⟩
  | .local _ .vmem, ⟨5, _⟩ => ⟨S256, .f32⟩
  | .local _ .vmem, ⟨6, _⟩ => ⟨S512x768, .bf16⟩
  | .local _ .vmem, ⟨7, _⟩ => ⟨S1x768, .f32⟩
  | .local _ .vmem, ⟨8, _⟩ => ⟨S512x512, .f32⟩
  | .local _ .vmem, ⟨9, _⟩ => ⟨S512x512, .f32⟩
  | _, _ => ⟨S32768x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x512_S512x256_1_0 : S256x512.Transposes [1, 0] S512x256
  bitsLt_bf16_f32 : FTy.bits .bf16 < FTy.bits .f32
  transposes_S768x512_S512x768_1_0 : S768x512.Transposes [1, 0] S512x768
  inb_S512x8x256_S512x8x256_0_0_0 : ∀ a, (![0, 0, 0] : Fin 3 → Nat) a + S512x8x256.size a ≤ S512x8x256.size a
  h_S512x8x256 : 0 < S512x8x256.numel
  reduces_S512x8x256_S512x256 : S512x8x256.Reduces [1] S512x256
  concatenates_S512x256_S512x256_S512x512_d1 : Shape.Concatenates [S512x256, S512x256] S512x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  inb_S512x512_S512x512_0_0 : ∀ a, (![0, 0] : Fin 2 → Nat) a + S512x512.size a ≤ S512x512.size a
  h_S512x512 : 0 < S512x512.numel
  dot_S512x512_S512x256_S512x256_1_0_0_1_n_n_wf : DotDims.WF S512x512 S512x256 S512x256 [1] [0] [0] [1] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x256.size a ≤ S32768x8x256.size a
  hwx0_0 : ∀ i : grid0.Coords, EltTy.bits .f32 = 32 ∨ (Rect.block (s := S32768x8x256) S512x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x256.size a ≤ S32768x8x256.size a
  hwx0_1 : ∀ i : grid0.Coords, EltTy.bits .f32 = 32 ∨ (Rect.block (s := S32768x8x256) S512x8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S512x768.size a
  hwx0_4 : ∀ i : grid0.Coords, EltTy.bits .bf16 = 32 ∨ (Rect.block (s := S512x768) S512x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x512.size a
  hwx0_6 : ∀ i : grid0.Coords, EltTy.bits .f32 = 32 ∨ (Rect.block (s := S32768x512) S512x512.size (cc0_transform_6 i) (hinb0_6 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_arg0) S512x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S_ : Shape := ⟨0, ![]⟩
abbrev S32768x256 : Shape := ⟨2, ![32768, 256]⟩
abbrev S32768x512 : Shape := ⟨2, ![32768, 512]⟩
abbrev S512x256 : Shape := ⟨2, ![512, 256]⟩
abbrev S1x256 : Shape := ⟨2, ![1, 256]⟩
abbrev S32768x1x256 : Shape := ⟨3, ![32768, 1, 256]⟩
abbrev S512x768 : Shape := ⟨2, ![512, 768]⟩
abbrev S32768x768 : Shape := ⟨2, ![32768, 768]⟩

abbrev nBuf : Space → Nat
  | .hbm => 58
  | .vmem => 0
  | .smem => 0
  | _ => 0

abbrev bufTy : (tb : Table) → Fin (tcTables nBuf tb) → BufTy
  | .hbm, ⟨0, _⟩ => ⟨S32768x8x256, .f32⟩
  | .hbm, ⟨1, _⟩ => ⟨S32768x8x256, .f32⟩
  | .hbm, ⟨2, _⟩ => ⟨S768x512, .f32⟩
  | .hbm, ⟨3, _⟩ => ⟨S1x768, .f32⟩
  | .hbm, ⟨4, _⟩ => ⟨S256x512, .f32⟩
  | .hbm, ⟨5, _⟩ => ⟨S256, .f32⟩
  | .hbm, ⟨6, _⟩ => ⟨S_, .f32⟩
  | .hbm, ⟨7, _⟩ => ⟨S32768x256, .f32⟩
  | .hbm, ⟨8, _⟩ => ⟨S_, .f32⟩
  | .hbm, ⟨9, _⟩ => ⟨S32768x256, .f32⟩
  | .hbm, ⟨10, _⟩ => ⟨S32768x512, .f32⟩
  | .hbm, ⟨11, _⟩ => ⟨S512x256, .f32⟩
  | .hbm, ⟨12, _⟩ => ⟨S32768x256, .f32⟩
  | .hbm, ⟨13, _⟩ => ⟨S1x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S_, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x1x256, .f32⟩
  | .hbm, ⟨25, _⟩ => ⟨S32768x8x256, .f32⟩
  | .hbm, ⟨26, _⟩ => ⟨S32768x8x256, .f32⟩
  | .hbm, ⟨27, _⟩ => ⟨S_, .f32⟩
  | .hbm, ⟨28, _⟩ => ⟨S32768x256, .f32⟩
  | .hbm, ⟨29, _⟩ => ⟨S512x768, .f32⟩
  | .hbm, ⟨30, _⟩ => ⟨S32768x768, .f32⟩
  | .hbm, ⟨31, _⟩ => ⟨S32768x768, .f32⟩
  | .hbm, ⟨32, _⟩ => ⟨S32768x768, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S_, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x512, .f32⟩
  | _, _ => ⟨S32768x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  reducesTo_S32768x8x256_S32768x256_d1 : S32768x8x256.ReducesTo [1] S32768x256
  h_S_ : 0 < S_.numel
  concatenates_S32768x256_S32768x256_S32768x512_d1 : Shape.Concatenates [S32768x256, S32768x256] S32768x512 1
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S32768x256_S32768x1x256_0_2 : S32768x256.BroadcastsInDim S32768x1x256 (![0, 2] : Fin 2 → Fin S32768x1x256.rank)
  bcast_S32768x1x256_S32768x8x256_0_1_2 : S32768x1x256.BroadcastsInDim S32768x8x256 (![0, 1, 2] : Fin 3 → Fin S32768x8x256.rank)
  transposes_S768x512_S512x768_1_0 : S768x512.Transposes [1, 0] S512x768
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  dot_S32768x512_S512x256_S32768x256_1_0_0_1_n_n_wf : DotDims.WF S32768x512 S512x256 S32768x256 [1] [0] [0] [1] [] []
  dot_S32768x512_S512x768_S32768x768_1_0_0_1_n_n_wf : DotDims.WF S32768x512 S512x768 S32768x768 [1] [0] [0] [1] [] []

variable [Facts₀]

def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x512_S512x768_S32768x768_1_0_0_1_n_n : DotDims S32768x512 S512x768 S32768x768 where
  lhsContracting := [1]
  rhsContracting := [0]
  lhsNonContracting := [0]
  rhsNonContracting := [1]
  lhsBatch := []
  rhsBatch := []
  wf := dot_S32768x512_S512x768_S32768x768_1_0_0_1_n_n_wf

class Facts : Prop extends Facts₀ where

variable [Facts]
-- ==== Proof.Cell.lean ====
/-
  One node of a child-sum tree LSTM, as a function of the node's eight child rows.

  A node has eight children; child `q` brings a hidden row `h q` and a cell row `c q`, each of 256 entries.
  The node's combined row has 512 entries: the children's sum in each of the first 256 columns, the children's
  maximum in each of the last 256 (`comb`). Two affine maps of the combined row give the forget gate's
  pre-activation (256 columns) and the input / output / update pre-activations (3 · 256 columns) (`lin`). Then

    cell   j = σ(iou j) · tanh(iou (j + 512)) + σ(fgate j) · Σ_q c q j
    hidden j = σ(iou (j + 256)) · tanh(cell j)

  and the node's output row is `hidden` in its first 256 columns and `cell` in its last 256 (`outRow`). All of it is
  over the extended reals, σ the logistic function.

  The one law used: a logistic value is a real number in [0, 1] at EVERY extended real (0 at −∞, 1 at +∞), and a
  non-negative finite factor distributes over a sum of extended reals. So weighting each child's cell entry by the
  gate and summing is the gate times the children's sum (`gate_sum`), whatever the cell entries are.
-/
import Idealize.ShloMosaic.PureOps.Ideal
import Idealize.ShloMosaic.PureOps.Ideal.Laws
import Idealize.ShloMosaic.Lib.ValueIdx
import Idealize.ShloMosaic.Lib.IdealHost

open scoped BigOperators

noncomputable section

namespace Cert.TreeCell

open Idealize.ShloMosaic Idealize.ShloMosaic.ValueIdx

/-- The value a maximum over the children starts from: the f32 word of minus infinity. -/
abbrev maxStart : EReal := Ideal.ofBits .f32 0xFF800000#32

/-- The combined row: column `k < 256` is the sum over the children of their hidden entry `k`; column `256 + k` is
    their maximum. -/
def comb (h : Fin 8 → Fin 256 → EReal) (k : Fin 512) : EReal :=
  if hk : k.val < 256 then ∑ q : Fin 8, h q ⟨k.val, hk⟩
  else (Finset.univ : Finset (Fin 8)).fold max maxStart fun q => h q ⟨k.val - 256, by have := k.isLt; omega⟩

/-- Column `j` of an affine map of the combined row: `Σ_k hc k · w k j + b j`. -/
def lin {n : ℕ} (hc : Fin 512 → EReal) (w : Fin 512 → Fin n → EReal) (b : Fin n → EReal) (j : Fin n) : EReal :=
  (∑ k : Fin 512, hc k * w k j) + b j

/-- The node's new cell entry `j`. -/
def cell (hc : Fin 512 → EReal) (c : Fin 8 → Fin 256 → EReal) (wf : Fin 512 → Fin 256 → EReal) (bf : Fin 256 → EReal)
    (wiou : Fin 512 → Fin 768 → EReal) (biou : Fin 768 → EReal) (j : Fin 256) : EReal :=
  Ideal.logistic (lin hc wiou biou ⟨j.val, by have := j.isLt; omega⟩)
      * Ideal.tanh (lin hc wiou biou ⟨j.val + 512, by have := j.isLt; omega⟩)
    + Ideal.logistic (lin hc wf bf j) * ∑ q : Fin 8, c q j

/-- The node's new hidden entry `j`. -/
def hidden (hc : Fin 512 → EReal) (c : Fin 8 → Fin 256 → EReal) (wf : Fin 512 → Fin 256 → EReal) (bf : Fin 256 → EReal)
    (wiou : Fin 512 → Fin 768 → EReal) (biou : Fin 768 → EReal) (j : Fin 256) : EReal :=
  Ideal.logistic (lin hc wiou biou ⟨j.val + 256, by have := j.isLt; omega⟩) * Ideal.tanh (cell hc c wf bf wiou biou j)

/-- The node's output row: hidden entries, then cell entries. -/
def outRow (h c : Fin 8 → Fin 256 → EReal) (wf : Fin 512 → Fin 256 → EReal) (bf : Fin 256 → EReal)
    (wiou : Fin 512 → Fin 768 → EReal) (biou : Fin 768 → EReal) (j : Fin 512) : EReal :=
  if hj : j.val < 256 then hidden (comb h) c wf bf wiou biou ⟨j.val, hj⟩
  else cell (comb h) c wf bf wiou biou ⟨j.val - 256, by have := j.isLt; omega⟩

/-- The whole result, node by node: row `n` is `outRow` of node `n`'s child rows, the two weight matrices given
    already transposed (`[512, 256]` and `[512, 768]`). -/
def G (H C : (⟨3, ![32768, 8, 256]⟩ : Shape).Idx → EReal) (wfT : (⟨2, ![512, 256]⟩ : Shape).Idx → EReal)
    (bf : (⟨1, ![256]⟩ : Shape).Idx → EReal) (wiouT : (⟨2, ![512, 768]⟩ : Shape).Idx → EReal)
    (biou : (⟨2, ![1, 768]⟩ : Shape).Idx → EReal) : (⟨2, ![32768, 512]⟩ : Shape).Idx → EReal := fun i =>
  outRow (fun q k => H (ix3 (n0 := 32768) (i 0) q k)) (fun q k => C (ix3 (n0 := 32768) (i 0) q k)) (fun k j => wfT (ix2 k j))
    (fun j => bf (ix1 j)) (fun k j => wiouT (ix2 k j)) (fun j => biou (ix2 (0 : Fin 1) j)) (i 1)

/-! ## The law -/

theorem logistic_nonneg (x : EReal) : 0 ≤ Ideal.logistic x := by
  induction x with
  | bot => rw [Ideal.logistic_bot]
  | top => rw [Ideal.logistic_top]; exact zero_le_one
  | coe r =>
    rw [Ideal.logistic_coe]
    exact EReal.coe_nonneg.mpr (inv_nonneg.mpr (add_pos zero_lt_one (Real.exp_pos _)).le)

theorem logistic_ne_top (x : EReal) : Ideal.logistic x ≠ ⊤ := by
  induction x with
  | bot => rw [Ideal.logistic_bot]; exact EReal.zero_ne_top
  | top => rw [Ideal.logistic_top, ← EReal.coe_one]; exact EReal.coe_ne_top 1
  | coe r => rw [Ideal.logistic_coe]; exact EReal.coe_ne_top _

/-- A non-negative finite factor goes inside a finite sum of extended reals. -/
theorem mul_sum_of_nonneg {ι : Type} (s : Finset ι) (a : EReal) (h0 : 0 ≤ a) (ht : a ≠ ⊤) (c : ι → EReal) :
    a * ∑ q ∈ s, c q = ∑ q ∈ s, a * c q := by
  classical
  induction s using Finset.induction_on with
  | empty => rw [Finset.sum_empty, Finset.sum_empty, mul_zero]
  | insert q s hq ih =>
    rw [Finset.sum_insert hq, Finset.sum_insert hq, EReal.left_distrib_of_nonneg_of_ne_top h0 ht, ih]

/-- The reference's spelling of the logistic function — one over one plus the exponential of the negation, the ones
    given by their f32 word — is the logistic function. -/
theorem spelled_logistic (x : EReal) :
    Ideal.div (Ideal.ofBits .f32 0x3F800000#32) (Ideal.ofBits .f32 0x3F800000#32 + Ideal.exp (-x)) = Ideal.logistic x := by
  rw [Ideal.ofBits_one_f32]; rfl

/-- Each child's cell entry weighted by the gate, summed from the f32 zero, is the gate times the children's sum. -/
theorem gate_sum (x : EReal) (c : Fin 8 → EReal) :
    Ideal.ofBits .f32 0x00000000#32 + ∑ q : Fin 8, Ideal.logistic x * c q = Ideal.logistic x * ∑ q : Fin 8, c q := by
  rw [Ideal.ofBits_zero_f32, zero_add, mul_sum_of_nonneg _ _ (logistic_nonneg x) (logistic_ne_top x)]

end Cert.TreeCell

end
-- ==== Proof.LibMaxMiddle.lean ====
/-
  The maximum over the middle axis of a rank-3 array, read at an entry (general in the sizes).

  For an array `[A, B, C]` reduced over its axis `1` into `[A, C]`, the source index lying over the result
  index `(p, r)` with coordinate `q` on the reduced axis is `(p, q, r)` (`lift_middle`). So at the ideal
  values, where the maximum of two extended reals commutes and associates, a kernel's vector reduction with the
  maximum (`multiReduction_max_middle`) and a host's one-operand reduce with a maximum body
  (`hostReduce_max_middle`) are, at `(p, r)`, the SAME fold of `max` over `q : Fin B` of the source at
  `(p, q, r)`, started from the accumulator's (resp. the initial value's) element: what a max-pool over a
  neighbour axis prints on either side.
-/
import Idealize.ShloMosaic.Lib.ValueIdx
import Idealize.ShloMosaic.PureOps.Ideal.Laws

namespace Cert.Lib.MaxMiddle

open Idealize.ShloMosaic Idealize.ShloMosaic.ValueIdx

variable {A B C : ℕ}

/-- Over the result index `(p, r)`, the source index with `q` on the reduced middle axis is `(p, q, r)`. -/
theorem lift_middle (h : (⟨3, ![A, B, C]⟩ : Shape).Reduces [(1 : Fin 3)] (⟨2, ![A, C]⟩ : Shape))
    (p : Fin A) (r : Fin C) (q : Fin B) : h.lift (ix2 p r) q = ix3 p q r := by
  funext c
  apply Fin.ext
  match c with
  | ⟨0, _⟩ => rfl
  | ⟨1, _⟩ => rfl
  | ⟨2, _⟩ => rfl

/-- A kernel's maximum-reduction over the middle axis, at the ideal values, read at `(p, r)`. -/
theorem multiReduction_max_middle {φ : FTy} (src : FVec Ideal (⟨3, ![A, B, C]⟩ : Shape) φ) (acc : BitVec φ.bits)
    (h : (⟨3, ![A, B, C]⟩ : Shape).Reduces [(1 : Fin 3)] (⟨2, ![A, C]⟩ : Shape)) (hφ : FKind.Formats φ)
    (hacc : acc = FKind.maximumf.neutral φ hφ) (p : Fin A) (r : Fin C) :
    multiReduction .maximumf [(1 : Fin 3)] (⟨2, ![A, C]⟩ : Shape) src acc h hφ hacc (ix2 p r)
      = (Finset.univ : Finset (Fin B)).fold max (Ideal.ofBits φ acc) (fun q => src (ix3 p q r)) := by
  refine (Ideal.multiReduction_maximumf_single src acc h hφ hacc (ix2 p r)).trans ?_
  exact congrArg (fun f : Fin B → EReal => (Finset.univ : Finset (Fin B)).fold max (Ideal.ofBits φ acc) f)
    (funext fun q => congrArg src (lift_middle h p r q))

/-- A host's one-operand reduce with a maximum body over the middle axis, at the ideal values, read at `(p, r)`:
    the same fold, from the initial value's one element. -/
theorem hostReduce_max_middle {φ : FTy} {u : Shape} (x : (⟨3, ![A, B, C]⟩ : Shape).Idx → Ideal φ) (init : u.Idx → Ideal φ)
    (h' : (⟨3, ![A, B, C]⟩ : Shape).ReducesTo [(1 : Fin 3)] (⟨2, ![A, C]⟩ : Shape))
    (h : (⟨3, ![A, B, C]⟩ : Shape).Reduces [(1 : Fin 3)] (⟨2, ![A, C]⟩ : Shape)) (hu : 0 < u.numel) (p : Fin A) (r : Fin C) :
    Host.reduce (FloatOps.maximumf (F := Ideal) (φ := φ)) x init h' hu (ix2 p r)
      = (Finset.univ : Finset (Fin B)).fold max (init (Shape.Idx.first hu)) (fun q => x (ix3 p q r)) := by
  refine (Host.reduce_eq_fold_single (FloatOps.maximumf (F := Ideal) (φ := φ)) x init h' h hu (ix2 p r)).trans ?_
  exact congrArg (fun f : Fin B → EReal => (Finset.univ : Finset (Fin B)).fold max (init (Shape.Idx.first hu)) f)
    (funext fun q => congrArg x (lift_middle h p r q))

end Cert.Lib.MaxMiddle
-- ==== Proof.LibConcat2.lean ====
/-
  A matrix assembled from two pieces, read at an entry.

  `rows_upper` / `rows_lower`: `[a, c]` on top of `[b, c]` (a concatenation along axis 0) read at row `r`: the
  upper piece at row `r` when `r < a`, the lower piece at row `r - a` otherwise.
  `cols_left` / `cols_right`: `[r, a]` beside `[r, b]` (along axis 1) likewise at a column.
  Generic in the extents and in the entries' type; the caller names the piece's own index and the one
  equation that places it.
-/
import Idealize.ShloMosaic.Lib.Pipeline.Value
import Idealize.ShloMosaic.Lib.ValueIdx

namespace Cert.LibConcat2

open Idealize.ShloMosaic Idealize.ShloMosaic.ValueIdx

variable {α : Type}

/-- Two blocks of rows, read at a row of the upper block. -/
theorem rows_upper {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin a) (hi : i.val = r.val) :
    concatenate ⟨2, ![t, c]⟩ 0 [⟨⟨2, ![a, c]⟩, x⟩, ⟨⟨2, ![b, c]⟩, y⟩] h (ix2 r j) = x (ix2 i j) :=
  concatenate_pair_apply_left 0 x y h (ix2 r j) rfl (ix2 i j)
    (fun d => match d with | ⟨0, _⟩ => hi | ⟨1, _⟩ => rfl)

/-- Two blocks of rows, read at a row of the lower block: its own row index is the row less the upper block's height. -/
theorem rows_lower {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin b) (hi : i.val + a = r.val) :
    concatenate ⟨2, ![t, c]⟩ 0 [⟨⟨2, ![a, c]⟩, x⟩, ⟨⟨2, ![b, c]⟩, y⟩] h (ix2 r j) = y (ix2 i j) :=
  concatenate_pair_apply_right 0 x y h (ix2 r j) rfl rfl (ix2 i j)
    (fun d hd => match d, hd with
      | ⟨0, _⟩, hd => (hd (Fin.ext rfl)).elim
      | ⟨1, _⟩, _ => rfl) hi

/-- Two blocks of columns, read at a column of the left block. -/
theorem cols_left {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin a) (hj : j.val = q.val) :
    concatenate ⟨2, ![r, t]⟩ 1 [⟨⟨2, ![r, a]⟩, x⟩, ⟨⟨2, ![r, b]⟩, y⟩] h (ix2 i q) = x (ix2 i j) :=
  concatenate_pair_apply_left 1 x y h (ix2 i q) rfl (ix2 i j)
    (fun d => match d with | ⟨0, _⟩ => rfl | ⟨1, _⟩ => hj)

/-- Two blocks of columns, read at a column of the right block. -/
theorem cols_right {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin b) (hj : j.val + a = q.val) :
    concatenate ⟨2, ![r, t]⟩ 1 [⟨⟨2, ![r, a]⟩, x⟩, ⟨⟨2, ![r, b]⟩, y⟩] h (ix2 i q) = y (ix2 i j) :=
  concatenate_pair_apply_right 1 x y h (ix2 i q) rfl rfl (ix2 i j)
    (fun d hd => match d, hd with
      | ⟨0, _⟩, _ => rfl
      | ⟨1, _⟩, hd => (hd (Fin.ext rfl)).elim) hj

end Cert.LibConcat2
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.LibColSlice.lean ====
/-
  A slice of columns of a matrix, read at an entry (general in the sizes and the element type).

  From a matrix `[r, n]` the columns `o … o + w − 1` of every row form a matrix `[r, w]`; its entry `(p, j)` is the
  source's entry `(p, o + j)`. This is what splitting a row of several gates' pre-activations into the gates
  prints, in a kernel and on a host alike.
-/
import Idealize.ShloMosaic.Lib.Pipeline.Value
import Idealize.ShloMosaic.Lib.ValueIdx

namespace Cert.Lib.ColSlice

open Idealize.ShloMosaic Idealize.ShloMosaic.ValueIdx

variable {α : Type}

/-- The slice's entry `(p, j)` is the source's entry `(p, j')` with `j' = o + j`. -/
theorem cols_apply {r n w : ℕ} (o : ℕ) (x : (⟨2, ![r, n]⟩ : Shape).Idx → α)
    (h : (⟨2, ![r, n]⟩ : Shape).Slices ![0, o] (⟨2, ![r, w]⟩ : Shape)) (p : Fin r) (j : Fin w) (j' : Fin n)
    (hj : j'.val = o + j.val) :
    extractStridedSlice (⟨2, ![r, w]⟩ : Shape) ![0, o] x h (ix2 p j) = x (ix2 p j') :=
  extractStridedSlice_apply _ x h _ _ fun a =>
    match a with
    | ⟨0, _⟩ => (Nat.zero_add _).symm
    | ⟨1, _⟩ => hj

end Cert.Lib.ColSlice
-- ==== Proof.KernelBody.lean ====
/-
  What the kernel's body stores, entry by entry.

  One grid point works on 512 nodes. Its body loads the 512 nodes' child rows (hidden and cell), the two
  transposed weight matrices and the two bias rows, and stores one `[512, 512]` block. Read at the entry `(p, j)` —
  node `p` of the block, column `j` — the stored value is the node's output row `Cert.TreeCell.outRow` of node `p`'s
  child rows: the children's sums beside their maxima form the combined row, the two matrix products into a zero
  accumulator are sums over the 512 combined columns, each bias row is the same in every node's row, the three
  gates are column slices of one product, and the logistic function, the hyperbolic tangent, sums and products act
  entry by entry. Rounding the combined row to a narrower format changes nothing over the extended reals.
-/
import proofs.«111368_j29841432773236_1_alg».proof.Proof.Gen.KernelIdeal.Skeleton
import proofs.«111368_j29841432773236_1_alg».proof.Proof.Cell
import proofs.«111368_j29841432773236_1_alg».proof.Proof.LibMaxMiddle
import proofs.«111368_j29841432773236_1_alg».proof.Proof.LibConcat2
import proofs.«111368_j29841432773236_1_alg».proof.Proof.LibPlainDot
import proofs.«111368_j29841432773236_1_alg».proof.Proof.LibRowSpread
import proofs.«111368_j29841432773236_1_alg».proof.Proof.LibColSlice
import Idealize.ShloMosaic.Lib.Pipeline.Value
import Idealize.ShloMosaic.Lib.ValueIdx
import Idealize.ShloMosaic.PureOps.Ideal.Laws

open scoped BigOperators

noncomputable section

namespace Cert.KernelIdeal.Body

open Cert.KernelIdeal Cert.KernelIdeal.Gen Idealize.ShloMosaic Idealize.ShloMosaic.ValueIdx Cert.TreeCell

/-- Both products are plain `[512, 512] · [512, n]` products. -/
theorem plain_f : PlainDot.IsPlain dot_S512x512_S512x256_S512x256_1_0_0_1_n_n := ⟨rfl, rfl, rfl, rfl, rfl, rfl⟩
theorem plain_iou : PlainDot.IsPlain dot_S512x512_S512x768_S512x768_1_0_0_1_n_n := ⟨rfl, rfl, rfl, rfl, rfl, rfl⟩

/-- A plain product into the zero accumulator at `(p, q)`, whatever formats the operands are kept in. -/
theorem matmul_read {φ₁ φ₂ : FTy} {R K N : ℕ}
    {d : DotDims (⟨2, ![R, K]⟩ : Shape) (⟨2, ![K, N]⟩ : Shape) (⟨2, ![R, N]⟩ : Shape)} (h : PlainDot.IsPlain d)
    (prec : Option ContractPrecision) (l : FVec Ideal (⟨2, ![R, K]⟩ : Shape) φ₁) (r : FVec Ideal (⟨2, ![K, N]⟩ : Shape) φ₂)
    (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (PlainDot.sum_contr h l r p q)

/-- The children's sum over the middle axis of a `[512, 8, 256]` block at `(p, k)`. -/
theorem childSum_read (v : FVec Ideal S512x8x256 .f32) (p : Fin 512) (k : Fin 256) :
    multiReduction (F := Ideal) .add [1] S512x256 v 0x00000000#32 reduces_S512x8x256_S512x256 (.inl rfl) rfl (ix2 p k)
      = ∑ q : Fin 8, v (ix3 p q k) :=
  (Ideal.multiReduction_add_single v _ reduces_S512x8x256_S512x256 _ _ (ix2 p k)).trans
    (Finset.sum_congr rfl fun q _ => congrArg v (Cert.Lib.MaxMiddle.lift_middle reduces_S512x8x256_S512x256 p k q))

/-- The body's combined block: the children's sums beside the children's maxima. -/
def combBlock (v0 : FVec Ideal S512x8x256 .f32) : FVec Ideal S512x512 .f32 :=
  concatenate S512x512 1 [⟨S512x256, multiReduction (F := Ideal) .add [1] S512x256 v0 0x00000000#32 reduces_S512x8x256_S512x256 (.inl rfl) rfl⟩,
    ⟨S512x256, multiReduction (F := Ideal) .maximumf [1] S512x256 v0 0xFF800000#32 reduces_S512x8x256_S512x256 (.inl rfl) rfl⟩]
    concatenates_S512x256_S512x256_S512x512_d1

theorem combBlock_read (v0 : FVec Ideal S512x8x256 .f32) (p : Fin 512) (k : Fin 512) :
    combBlock v0 (ix2 p k) = comb (fun q k => v0 (ix3 p q k)) k := by
  unfold combBlock comb
  by_cases hk : k.val < 256
  · rw [dif_pos hk]
    refine (Cert.LibConcat2.cols_left _ _ concatenates_S512x256_S512x256_S512x512_d1 p k ⟨k.val, hk⟩ rfl).trans ?_
    exact childSum_read v0 p ⟨k.val, hk⟩
  · rw [dif_neg hk]
    have hk' : k.val - 256 < 256 := by have := k.isLt; omega
    refine (Cert.LibConcat2.cols_right _ _ concatenates_S512x256_S512x256_S512x512_d1 p k ⟨k.val - 256, hk'⟩
      (by show k.val - 256 + 256 = k.val; omega)).trans ?_
    exact Cert.Lib.MaxMiddle.multiReduction_max_middle v0 _ reduces_S512x8x256_S512x256 _ _ p ⟨k.val - 256, hk'⟩

/-- The forget gate's pre-activation block. -/
def fBlock (v0 : FVec Ideal S512x8x256 .f32) (v7 : FVec Ideal S512x256 .bf16) (v10 : FVec Ideal S256 .f32) : FVec Ideal S512x256 .f32 :=
  addf (matmul (F := Ideal) (φ₁ := .bf16) (φ₂ := .bf16) dot_S512x512_S512x256_S512x256_1_0_0_1_n_n none (truncf .bf16 (combBlock v0) bitsLt_bf16_f32)
      (shapeCast S512x256 v7 shapeCasts_S512x256_S512x256) (constant (F := Ideal) S512x256 .f32 0x00000000#32))
    (broadcastTo S512x256 (shapeCast S1x256 v10 shapeCasts_S256_S1x256) broadcasts_S1x256_S512x256)

theorem fBlock_read (v0 : FVec Ideal S512x8x256 .f32) (v7 : FVec Ideal S512x256 .bf16) (v10 : FVec Ideal S256 .f32)
    (p : Fin 512) (j : Fin 256) :
    fBlock v0 v7 v10 (ix2 p j)
      = lin (comb fun q k => v0 (ix3 p q k)) (fun k j => v7 (ix2 k j)) (fun j => v10 (ix1 j)) j := by
  unfold fBlock lin
  show FloatOps.matmul _ none _ _ _ (ix2 p j) + broadcastTo S512x256 _ _ (ix2 p j) = _
  rw [matmul_read plain_f none _ _ p j, Cert.Lib.RowSpread.spread_asRow_apply v10 _ _ p j, shapeCast_self]
  refine congrArg (· + _) (Finset.sum_congr rfl fun k _ => ?_)
  show combBlock v0 (ix2 p k) * _ = _
  rw [combBlock_read]

/-- The input / output / update pre-activations' block. -/
def iouBlock (v0 : FVec Ideal S512x8x256 .f32) (v16 : FVec Ideal S512x768 .bf16) (v19 : FVec Ideal S1x768 .f32) : FVec Ideal S512x768 .f32 :=
  addf (matmul (F := Ideal) (φ₁ := .bf16) (φ₂ := .bf16) dot_S512x512_S512x768_S512x768_1_0_0_1_n_n none (truncf .bf16 (combBlock v0) bitsLt_bf16_f32)
      (shapeCast S512x768 v16 shapeCasts_S512x768_S512x768) (constant (F := Ideal) S512x768 .f32 0x00000000#32))
    (broadcastTo S512x768 v19 broadcasts_S1x768_S512x768)

theorem iouBlock_read (v0 : FVec Ideal S512x8x256 .f32) (v16 : FVec Ideal S512x768 .bf16) (v19 : FVec Ideal S1x768 .f32)
    (p : Fin 512) (j : Fin 768) :
    iouBlock v0 v16 v19 (ix2 p j)
      = lin (comb fun q k => v0 (ix3 p q k)) (fun k j => v16 (ix2 k j)) (fun j => v19 (ix2 (0 : Fin 1) j)) j := by
  unfold iouBlock lin
  show FloatOps.matmul _ none _ _ _ (ix2 p j) + broadcastTo S512x768 _ _ (ix2 p j) = _
  rw [matmul_read plain_iou none _ _ p j, Cert.Lib.RowSpread.spreadRows_apply v19 _ p j, shapeCast_self]
  refine congrArg (· + _) (Finset.sum_congr rfl fun k _ => ?_)
  show combBlock v0 (ix2 p k) * _ = _
  rw [combBlock_read]

/-- The new cell block. -/
def cellBlock (v0 v1 : FVec Ideal S512x8x256 .f32) (v7 : FVec Ideal S512x256 .bf16) (v10 : FVec Ideal S256 .f32)
    (v16 : FVec Ideal S512x768 .bf16) (v19 : FVec Ideal S1x768 .f32) : FVec Ideal S512x256 .f32 :=
  addf (mulf (logistic (extractStridedSlice S512x256 ![0, 0] (iouBlock v0 v16 v19) slices_S512x768_o0_0_S512x256))
      (tanh (extractStridedSlice S512x256 ![0, 512] (iouBlock v0 v16 v19) slices_S512x768_o0_512_S512x256)))
    (mulf (logistic (fBlock v0 v7 v10))
      (multiReduction (F := Ideal) .add [1] S512x256 v1 0x00000000#32 reduces_S512x8x256_S512x256 (.inl rfl) rfl))

theorem cellBlock_read (v0 v1 : FVec Ideal S512x8x256 .f32) (v7 : FVec Ideal S512x256 .bf16) (v10 : FVec Ideal S256 .f32)
    (v16 : FVec Ideal S512x768 .bf16) (v19 : FVec Ideal S1x768 .f32) (p : Fin 512) (j : Fin 256) :
    cellBlock v0 v1 v7 v10 v16 v19 (ix2 p j)
      = cell (comb fun q k => v0 (ix3 p q k)) (fun q k => v1 (ix3 p q k)) (fun k j => v7 (ix2 k j)) (fun j => v10 (ix1 j))
          (fun k j => v16 (ix2 k j)) (fun j => v19 (ix2 (0 : Fin 1) j)) j := by
  unfold cellBlock cell
  show Ideal.logistic (extractStridedSlice S512x256 ![0, 0] (iouBlock v0 v16 v19) _ (ix2 p j))
        * Ideal.tanh (extractStridedSlice S512x256 ![0, 512] (iouBlock v0 v16 v19) _ (ix2 p j))
      + Ideal.logistic (fBlock v0 v7 v10 (ix2 p j)) * multiReduction (F := Ideal) .add [1] S512x256 v1 0x00000000#32 _ _ _ (ix2 p j) = _
  rw [Cert.Lib.ColSlice.cols_apply 0 (iouBlock v0 v16 v19) _ p j ⟨j.val, by have := j.isLt; omega⟩ (Nat.zero_add _).symm,
    Cert.Lib.ColSlice.cols_apply 512 (iouBlock v0 v16 v19) _ p j ⟨j.val + 512, by have := j.isLt; omega⟩ (Nat.add_comm _ _),
    iouBlock_read, iouBlock_read, fBlock_read, childSum_read]

/-- The new hidden block. -/
def hiddenBlock (v0 v1 : FVec Ideal S512x8x256 .f32) (v7 : FVec Ideal S512x256 .bf16) (v10 : FVec Ideal S256 .f32)
    (v16 : FVec Ideal S512x768 .bf16) (v19 : FVec Ideal S1x768 .f32) : FVec Ideal S512x256 .f32 :=
  mulf (logistic (extractStridedSlice S512x256 ![0, 256] (iouBlock v0 v16 v19) slices_S512x768_o0_256_S512x256))
    (tanh (cellBlock v0 v1 v7 v10 v16 v19))

theorem hiddenBlock_read (v0 v1 : FVec Ideal S512x8x256 .f32) (v7 : FVec Ideal S512x256 .bf16) (v10 : FVec Ideal S256 .f32)
    (v16 : FVec Ideal S512x768 .bf16) (v19 : FVec Ideal S1x768 .f32) (p : Fin 512) (j : Fin 256) :
    hiddenBlock v0 v1 v7 v10 v16 v19 (ix2 p j)
      = Cert.TreeCell.hidden (comb fun q k => v0 (ix3 p q k)) (fun q k => v1 (ix3 p q k)) (fun k j => v7 (ix2 k j)) (fun j => v10 (ix1 j))
          (fun k j => v16 (ix2 k j)) (fun j => v19 (ix2 (0 : Fin 1) j)) j := by
  unfold hiddenBlock Cert.TreeCell.hidden
  show Ideal.logistic (extractStridedSlice S512x256 ![0, 256] (iouBlock v0 v16 v19) _ (ix2 p j))
        * Ideal.tanh (cellBlock v0 v1 v7 v10 v16 v19 (ix2 p j)) = _
  rw [Cert.Lib.ColSlice.cols_apply 256 (iouBlock v0 v16 v19) _ p j ⟨j.val + 256, by have := j.isLt; omega⟩ (Nat.add_comm _ _),
    iouBlock_read, cellBlock_read]

/-- The body's stored value is the hidden block beside the cell block. -/
theorem pay_eq (v0 v1 : FVec Ideal S512x8x256 .f32) (v7 : FVec Ideal S512x256 .bf16) (v10 : FVec Ideal S256 .f32)
    (v16 : FVec Ideal S512x768 .bf16) (v19 : FVec Ideal S1x768 .f32) :
    k0_pay1 (F := Ideal) v0 v1 v7 v10 v16 v19
      = concatenate S512x512 1 [⟨S512x256, hiddenBlock v0 v1 v7 v10 v16 v19⟩, ⟨S512x256, cellBlock v0 v1 v7 v10 v16 v19⟩]
          concatenates_S512x256_S512x256_S512x512_d1 := by
  unfold k0_pay1 hiddenBlock cellBlock fBlock iouBlock combBlock
  rfl

/-- The body's stored value at `(p, j)` is node `p`'s output row at column `j`. -/
theorem pay_read (v0 v1 : FVec Ideal S512x8x256 .f32) (v7 : FVec Ideal S512x256 .bf16) (v10 : FVec Ideal S256 .f32)
    (v16 : FVec Ideal S512x768 .bf16) (v19 : FVec Ideal S1x768 .f32) (p : Fin 512) (j : Fin 512) :
    k0_pay1 (F := Ideal) v0 v1 v7 v10 v16 v19 (ix2 p j)
      = outRow (fun q k => v0 (ix3 p q k)) (fun q k => v1 (ix3 p q k)) (fun k j => v7 (ix2 k j)) (fun j => v10 (ix1 j))
          (fun k j => v16 (ix2 k j)) (fun j => v19 (ix2 (0 : Fin 1) j)) j := by
  rw [pay_eq]
  unfold outRow
  by_cases hj : j.val < 256
  · rw [dif_pos hj]
    refine (Cert.LibConcat2.cols_left _ _ concatenates_S512x256_S512x256_S512x512_d1 p j ⟨j.val, hj⟩ rfl).trans ?_
    exact hiddenBlock_read v0 v1 v7 v10 v16 v19 p ⟨j.val, hj⟩
  · rw [dif_neg hj]
    have hj' : j.val - 256 < 256 := by have := j.isLt; omega
    refine (Cert.LibConcat2.cols_right _ _ concatenates_S512x256_S512x256_S512x512_d1 p j ⟨j.val - 256, hj'⟩
      (by show j.val - 256 + 256 = j.val; omega)).trans ?_
    exact cellBlock_read v0 v1 v7 v10 v16 v19 p ⟨j.val - 256, hj'⟩

end Cert.KernelIdeal.Body

end
-- ==== Proof.KernelBlocks.lean ====
/-
  From what each grid point writes back to the kernel's whole result array.

  Grid point `t` (of 64) reads nodes `512 t … 512 t + 511` of the two mailboxes — rows `512 t + p` of the arrays, all
  eight children and all 256 columns — and the whole of the two transposed weight matrices and the two bias rows, and
  writes back rows `512 t … 512 t + 511` of the `[32768, 512]` result. By `Body.pay_read` the entry `(p, j)` it writes is
  node `512 t + p`'s output row at column `j`: point `t` writes block `t` of `Cert.TreeCell.G` of the arrays as the
  region finds them. Row `n` of the result lies in the block of point `n / 512`, so the blocks cover the array and the
  array ends as `G`. The two weight arrays the region finds are the arguments transposed on the host (a change of
  float format is the identity over the extended reals).
-/
import proofs.«111368_j29841432773236_1_alg».proof.Proof.Gen.KernelIdeal.Value
import proofs.«111368_j29841432773236_1_alg».proof.Proof.KernelBody
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.TreeCell
open Idealize.ShloMosaic.StableHlo

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 points: the two mailbox windows move with the result's rows, the
    other windows stay at block 0, and the result's row block at point `t` is `t`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input window's block, read through the array the region finds -/

theorem hblk_read (c : Dev nD) (t : Fin cfg0.N) (p : Fin 512) (q : Fin 8) (k : Fin 256) (n : Fin 32768)
    (hn : n.val = t.val * 512 + p.val) :
    (iblk m c 0 t : Vec Ideal S512x8x256 .f32) (ix3 p q k) = (V m c main_arg0 : S32768x8x256.Idx → EReal) (ix3 n q k) := by
  obtain ⟨e0, e1, e2, -⟩ := idx_facts t
  show V m c main_arg0 (((cfg0.win 0).blk t).view.emb (ix3 p q k)) = V m c main_arg0 (ix3 n q k)
  refine congrArg (V m c main_arg0) (funext fun a => Fin.ext ?_)
  match a with
  | ⟨0, _⟩ => show win0_0.index t (0 : Fin 3) * 512 + 1 * p.val = n.val; omega
  | ⟨1, _⟩ => show win0_0.index t (1 : Fin 3) * 8 + 1 * q.val = q.val; omega
  | ⟨2, _⟩ => show win0_0.index t (2 : Fin 3) * 256 + 1 * k.val = k.val; omega

theorem cblk_read (c : Dev nD) (t : Fin cfg0.N) (p : Fin 512) (q : Fin 8) (k : Fin 256) (n : Fin 32768)
    (hn : n.val = t.val * 512 + p.val) :
    (iblk m c 1 t : Vec Ideal S512x8x256 .f32) (ix3 p q k) = (V m c main_arg1 : S32768x8x256.Idx → EReal) (ix3 n q k) := by
  obtain ⟨-, -, -, e0, e1, e2, -⟩ := idx_facts t
  show V m c main_arg1 (((cfg0.win 1).blk t).view.emb (ix3 p q k)) = V m c main_arg1 (ix3 n q k)
  refine congrArg (V m c main_arg1) (funext fun a => Fin.ext ?_)
  match a with
  | ⟨0, _⟩ => show win0_1.index t (0 : Fin 3) * 512 + 1 * p.val = n.val; omega
  | ⟨1, _⟩ => show win0_1.index t (1 : Fin 3) * 8 + 1 * q.val = q.val; omega
  | ⟨2, _⟩ => show win0_1.index t (2 : Fin 3) * 256 + 1 * k.val = k.val; omega

theorem wfblk_read (c : Dev nD) (t : Fin cfg0.N) (k : Fin 512) (j : Fin 256) :
    (iblk m c 2 t : Vec Ideal S512x256 .bf16) (ix2 k j) = (V m c main_v1 : S512x256.Idx → EReal) (ix2 k j) := by
  obtain ⟨-, -, -, -, -, -, e0, e1, -⟩ := idx_facts t
  show V m c main_v1 (((cfg0.win 2).blk t).view.emb (ix2 k j)) = V m c main_v1 (ix2 k j)
  refine congrArg (V m c main_v1) (funext fun a => Fin.ext ?_)
  match a with
  | ⟨0, _⟩ => show win0_2.index t (0 : Fin 2) * 512 + 1 * k.val = k.val; omega
  | ⟨1, _⟩ => show win0_2.index t (1 : Fin 2) * 256 + 1 * j.val = j.val; omega

theorem bfblk_read (c : Dev nD) (t : Fin cfg0.N) (j : Fin 256) :
    (iblk m c 3 t : Vec Ideal S256 .f32) (ix1 j) = (V m c main_arg5 : S256.Idx → EReal) (ix1 j) := by
  obtain ⟨-, -, -, -, -, -, -, -, e0, -⟩ := idx_facts t
  show V m c main_arg5 (((cfg0.win 3).blk t).view.emb (ix1 j)) = V m c main_arg5 (ix1 j)
  refine congrArg (V m c main_arg5) (funext fun a => Fin.ext ?_)
  match a with
  | ⟨0, _⟩ => show win0_3.index t (0 : Fin 1) * 256 + 1 * j.val = j.val; omega

theorem wioublk_read (c : Dev nD) (t : Fin cfg0.N) (k : Fin 512) (j : Fin 768) :
    (iblk m c 4 t : Vec Ideal S512x768 .bf16) (ix2 k j) = (V m c main_v3 : S512x768.Idx → EReal) (ix2 k j) := by
  obtain ⟨-, -, -, -, -, -, -, -, -, e0, e1, -⟩ := idx_facts t
  show V m c main_v3 (((cfg0.win 4).blk t).view.emb (ix2 k j)) = V m c main_v3 (ix2 k j)
  refine congrArg (V m c main_v3) (funext fun a => Fin.ext ?_)
  match a with
  | ⟨0, _⟩ => show win0_4.index t (0 : Fin 2) * 512 + 1 * k.val = k.val; omega
  | ⟨1, _⟩ => show win0_4.index t (1 : Fin 2) * 768 + 1 * j.val = j.val; omega

theorem bioublk_read (c : Dev nD) (t : Fin cfg0.N) (u : Fin 1) (j : Fin 768) :
    (iblk m c 5 t : Vec Ideal S1x768 .f32) (ix2 u j) = (V m c main_arg3 : S1x768.Idx → EReal) (ix2 u j) := by
  obtain ⟨-, -, -, -, -, -, -, -, -, -, -, e0, e1, -⟩ := idx_facts t
  show V m c main_arg3 (((cfg0.win 5).blk t).view.emb (ix2 u j)) = V m c main_arg3 (ix2 u j)
  refine congrArg (V m c main_arg3) (funext fun a => Fin.ext ?_)
  match a with
  | ⟨0, _⟩ => show win0_5.index t (0 : Fin 2) * 1 + 1 * u.val = u.val; omega
  | ⟨1, _⟩ => show win0_5.index t (1 : Fin 2) * 768 + 1 * j.val = j.val; omega

/-! ## What a point writes back -/

/-- The node's output row depends only on its six row-level arguments. -/
theorem outRow_congr {h h' c c' : Fin 8 → Fin 256 → EReal} {wf wf' : Fin 512 → Fin 256 → EReal} {bf bf' : Fin 256 → EReal}
    {wiou wiou' : Fin 512 → Fin 768 → EReal} {biou biou' : Fin 768 → EReal}
    (e0 : h = h') (e1 : c = c') (e2 : wf = wf') (e3 : bf = bf') (e4 : wiou = wiou') (e5 : biou = biou') (j : Fin 512) :
    outRow h c wf bf wiou biou j = outRow h' c' wf' bf' wiou' biou' j := by
  subst e0 e1 e2 e3 e4 e5; rfl

/-- The result array as the region's arrays determine it. -/
abbrev GV (c : Dev nD) : S32768x512.Idx → EReal :=
  G (V m c main_arg0) (V m c main_arg1) (V m c main_v1) (V m c main_arg5) (V m c main_v3) (V m c main_arg3)

/-- WHAT POINT `t` WRITES BACK is block `t` of `G` of the arrays as the region finds them. -/
theorem flushed6_eq (c : Dev nD) (t : Fin cfg0.N) :
    (dats m 0 c).flushed 6 t = ((cfg0.win 6).blk t).view.read (Elt Ideal) (GV m c) := by
  rw [flushed6]
  unfold out0_6
  rw [View.canon_unit_zero hz2]
  simp only [View.ld_unit_zero (S := S512x8x256) hz3, View.ld_unit_zero (S := S512x256) hz2, View.ld_unit_zero (S := S256) hz1,
    View.ld_unit_zero (S := S512x768) hz2, View.ld_unit_zero (S := S1x768) hz2]
  funext y
  obtain ⟨p, j, rfl⟩ : ∃ (p : Fin 512) (j : Fin 512), y = ix2 p j := ⟨y 0, y 1, eq_ix2 y⟩
  obtain ⟨-, -, -, -, -, -, -, -, -, -, -, -, -, e0, e1⟩ := idx_facts t
  have hN : cfg0.N = 64 := N_0
  have ht : t.val < 64 := hN ▸ t.isLt
  have hn : t.val * 512 + p.val < 32768 := by have := p.isLt; omega
  have hemb : ((cfg0.win 6).blk t).view.emb (ix2 p j) = (ix2 (⟨t.val * 512 + p.val, hn⟩ : Fin 32768) j : S32768x512.Idx) :=
    funext fun a => Fin.ext (by
      match a with
      | ⟨0, _⟩ => show win0_6.index t (0 : Fin 2) * 512 + 1 * p.val = t.val * 512 + p.val; omega
      | ⟨1, _⟩ => show win0_6.index t (1 : Fin 2) * 512 + 1 * j.val = j.val; omega)
  show k0_pay1 (F := Ideal) (iblk m c 0 t) (iblk m c 1 t) (iblk m c 2 t) (iblk m c 3 t) (iblk m c 4 t) (iblk m c 5 t) (ix2 p j)
    = GV m c (((cfg0.win 6).blk t).view.emb (ix2 p j))
  rw [hemb, Body.pay_read]
  exact outRow_congr
    (funext fun q => funext fun k => hblk_read m c t p q k ⟨t.val * 512 + p.val, hn⟩ rfl)
    (funext fun q => funext fun k => cblk_read m c t p q k ⟨t.val * 512 + p.val, hn⟩ rfl)
    (funext fun k => funext fun j => wfblk_read m c t k j)
    (funext fun j => bfblk_read m c t j)
    (funext fun k => funext fun j => wioublk_read m c t k j)
    (funext fun j => bioublk_read m c t 0 j) j

/-! ## The blocks cover the array -/

theorem mem_blk6 (t : Fin cfg0.N) (i : S32768x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4).slice (win0_6.rect t)).set ↔ _
  rw [View.set_slice_whole, Rect.mem_set_unit]
  exact Iff.rfl

/-- Row `n` lies in the block of point `n / 512`. -/
theorem cover6 (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  have hN : cfg0.N = 64 := N_0
  have ht : (i 0).val / 512 < cfg0.N := by rw [hN]; omega
  obtain ⟨-, -, -, -, -, -, -, -, -, -, -, -, -, e0, e1⟩ := idx_facts ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, ht⟩ (1 : Fin 2) * 512 ≤ (i 1).val ∧ (i 1).val < win0_6.index ⟨(i 0).val / 512, ht⟩ (1 : Fin 2) * 512 + 512
    rw [e1]
    omega

/-- THE ARRAY after the run is `G` of the arrays as the region finds them. -/
theorem final6 (c : Dev nD) : (dats m 0 c).arrAt 6 cfg0.N = GV m c :=
  (dats m 0 c).arrAt_eq_of_cover 6 (GV m c) (fun t _ => flushed6_eq m c t) cover6

/-! ## The arrays the region finds, from the arguments -/

/-- The forget weights the region finds: the argument transposed. -/
theorem V_wf (c : Dev nD) : (V m c main_v1 : S512x256.Idx → EReal)
    = transpose S512x256 [1, 0] (m ((c : Thread nD τ).loc main_arg4)) transposes_S256x512_S512x256_1_0 := by
  dsimp only [V, hostOps0]
  after_results
  rfl

/-- The input / output / update weights the region finds: the argument transposed. -/
theorem V_wiou (c : Dev nD) : (V m c main_v3 : S512x768.Idx → EReal)
    = transpose S512x768 [1, 0] (m ((c : Thread nD τ).loc main_arg2)) transposes_S768x512_S512x768_1_0 := by
  dsimp only [V, hostOps0]
  after_results
  rfl

/-- The result array as the arguments determine it. -/
abbrev result (c : Dev nD) : S32768x512.Idx → EReal :=
  G (m ((c : Thread nD τ).loc main_arg0)) (m ((c : Thread nD τ).loc main_arg1))
    (transpose S512x256 [1, 0] (m ((c : Thread nD τ).loc main_arg4)) transposes_S256x512_S512x256_1_0)
    (m ((c : Thread nD τ).loc main_arg5))
    (transpose S512x768 [1, 0] (m ((c : Thread nD τ).loc main_arg2)) transposes_S768x512_S512x768_1_0)
    (m ((c : Thread nD τ).loc main_arg3))

theorem GV_eq (c : Dev nD) : GV m c = result m c := by
  unfold GV result
  rw [V_wf, V_wiou, V_main_arg0, V_main_arg1, V_main_arg5, V_main_arg3]

/-- The run, read: the result array is `G` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final6 m c).trans (GV_eq m c)), (h c).2⟩) (run_blocks m ρ)

end Cert.KernelIdeal.Blocks

end
-- ==== Proof.LibSumMiddle.lean ====
/-
  The sum over the middle axis of a rank-3 array, read at an entry (general in the sizes).

  For an array `[A, B, C]` summed over its axis `1` into `[A, C]`, the source index lying over the result index
  `(p, r)` with coordinate `q` on the summed axis is `(p, q, r)`. So at the ideal values a kernel's vector
  reduction with `add` is, at `(p, r)`, the sum over `q : Fin B` of the source at `(p, q, r)`
  (`multiReduction_add_middle`), and a host's one-operand reduce with an add body is the initial value's one element
  plus that same sum (`hostReduceAdd_middle`): what a sum over a neighbour or child axis prints on either side.
-/
import Idealize.ShloMosaic.Lib.ValueIdx
import Idealize.ShloMosaic.PureOps.Ideal.Laws

open scoped BigOperators

namespace Cert.Lib.SumMiddle

open Idealize.ShloMosaic Idealize.ShloMosaic.ValueIdx

variable {A B C : ℕ}

/-- Over the result index `(p, r)`, the source index with `q` on the summed middle axis is `(p, q, r)`. -/
theorem lift_middle (h : (⟨3, ![A, B, C]⟩ : Shape).Reduces [(1 : Fin 3)] (⟨2, ![A, C]⟩ : Shape))
    (p : Fin A) (r : Fin C) (q : Fin B) : h.lift (ix2 p r) q = ix3 p q r := by
  funext c
  apply Fin.ext
  match c with
  | ⟨0, _⟩ => rfl
  | ⟨1, _⟩ => rfl
  | ⟨2, _⟩ => rfl

/-- A kernel's sum-reduction over the middle axis, at the ideal values, read at `(p, r)`. -/
theorem multiReduction_add_middle {φ : FTy} (src : FVec Ideal (⟨3, ![A, B, C]⟩ : Shape) φ) (acc : BitVec φ.bits)
    (h : (⟨3, ![A, B, C]⟩ : Shape).Reduces [(1 : Fin 3)] (⟨2, ![A, C]⟩ : Shape)) (hφ : FKind.Formats φ)
    (hacc : acc = FKind.add.neutral φ hφ) (p : Fin A) (r : Fin C) :
    multiReduction .add [(1 : Fin 3)] (⟨2, ![A, C]⟩ : Shape) src acc h hφ hacc (ix2 p r) = ∑ q : Fin B, src (ix3 p q r) :=
  (Ideal.multiReduction_add_single src acc h hφ hacc (ix2 p r)).trans
    (Finset.sum_congr rfl fun q _ => congrArg src (lift_middle h p r q))

/-- A host's one-operand reduce with an add body over the middle axis, at the ideal values, read at `(p, r)`: the
    initial value's one element plus the same sum. -/
theorem hostReduceAdd_middle {φ : FTy} {u : Shape} (x : FVec Ideal (⟨3, ![A, B, C]⟩ : Shape) φ) (init : u.Idx → Ideal φ)
    (h' : (⟨3, ![A, B, C]⟩ : Shape).ReducesTo [(1 : Fin 3)] (⟨2, ![A, C]⟩ : Shape))
    (h : (⟨3, ![A, B, C]⟩ : Shape).Reduces [(1 : Fin 3)] (⟨2, ![A, C]⟩ : Shape)) (hu : 0 < u.numel) (p : Fin A) (r : Fin C) :
    Host.reduceAdd x init h' hu (ix2 p r) = init (Shape.Idx.first hu) + ∑ q : Fin B, x (ix3 p q r) :=
  (Ideal.hostReduceAdd_single h' h x (init (Shape.Idx.first hu)) (ix2 p r)).trans
    (congrArg (init (Shape.Idx.first hu) + ·) (Finset.sum_congr rfl fun q _ => congrArg x (lift_middle h p r q)))

end Cert.Lib.SumMiddle
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.LibSpreadMiddle.lean ====
/-
  A matrix repeated along a new middle axis, read at an entry (general in the sizes and the element type).

  A host program spreads a matrix `[a, c]` over a new middle axis in two steps: first to `[a, 1, c]`
  (`addMiddle_apply`), then the unit axis to `b` copies, `[a, b, c]` (`spreadMiddle_apply`). At `(p, q, r)` the result
  is the matrix's entry `(p, r)`, whatever `q` is (`spread_addMiddle_apply`): what `f[:, None, :] * x` over a child
  or neighbour axis prints.
-/
import Idealize.ShloMosaic.Lib.Pipeline.Value
import Idealize.ShloMosaic.Lib.ValueIdx

namespace Cert.Lib.SpreadMiddle

open Idealize.ShloMosaic Idealize.ShloMosaic.ValueIdx

variable {α : Type} {a b c : ℕ}

/-- The matrix with a unit middle axis: the entry `(p, u, r)` is the matrix's entry `(p, r)`. -/
theorem addMiddle_apply (h : (⟨2, ![a, c]⟩ : Shape).BroadcastsInDim ⟨3, ![a, 1, c]⟩ (![0, 2] : Fin 2 → Fin 3))
    (x : (⟨2, ![a, c]⟩ : Shape).Idx → α) (p : Fin a) (u : Fin 1) (r : Fin c) :
    broadcastInDim ⟨3, ![a, 1, c]⟩ ![0, 2] h x (ix3 p u r) = x (ix2 p r) :=
  broadcastInDim_apply _ h x _ _ (fun i => by
    match i with
    | ⟨0, _⟩ =>
      show p.val = if a = 1 then 0 else p.val
      split
      · have := p.isLt; omega
      · rfl
    | ⟨1, _⟩ =>
      show r.val = if c = 1 then 0 else r.val
      split
      · have := r.isLt; omega
      · rfl)

/-- The unit middle axis spread to `b` copies: the entry `(p, q, r)` is the source's entry `(p, 0, r)`. -/
theorem spreadMiddle_apply (h : (⟨3, ![a, 1, c]⟩ : Shape).BroadcastsInDim ⟨3, ![a, b, c]⟩ (![0, 1, 2] : Fin 3 → Fin 3))
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) :=
  broadcastInDim_apply _ h x _ _ (fun i => by
    match i with
    | ⟨0, _⟩ =>
      show p.val = if a = 1 then 0 else p.val
      split
      · have := p.isLt; omega
      · rfl
    | ⟨1, _⟩ => show (0 : ℕ) = if (1 : ℕ) = 1 then 0 else q.val; rw [if_pos rfl]
    | ⟨2, _⟩ =>
      show r.val = if c = 1 then 0 else r.val
      split
      · have := r.isLt; omega
      · rfl)

/-- Both steps: the matrix repeated along the middle axis reads, at `(p, q, r)`, the matrix at `(p, r)`. -/
theorem spread_addMiddle_apply (h₁ : (⟨2, ![a, c]⟩ : Shape).BroadcastsInDim ⟨3, ![a, 1, c]⟩ (![0, 2] : Fin 2 → Fin 3))
    (h₂ : (⟨3, ![a, 1, c]⟩ : Shape).BroadcastsInDim ⟨3, ![a, b, c]⟩ (![0, 1, 2] : Fin 3 → Fin 3))
    (x : (⟨2, ![a, c]⟩ : Shape).Idx → α) (p : Fin a) (q : Fin b) (r : Fin c) :
    broadcastInDim ⟨3, ![a, b, c]⟩ ![0, 1, 2] h₂ (broadcastInDim ⟨3, ![a, 1, c]⟩ ![0, 2] h₁ x) (ix3 p q r) = x (ix2 p r) :=
  (spreadMiddle_apply h₂ _ p q r).trans (addMiddle_apply h₁ x p 0 r)

end Cert.Lib.SpreadMiddle
-- ==== Proof.RefValue.lean ====
/-
  What the reference computes, entry by entry.

  The reference works on all 32768 nodes at once with host operations. Stage by stage — the children's sums beside
  their maxima, the two products with the transposed weights plus the bias rows, the logistic function spelled as one
  over one plus the exponential of the negation, the gate repeated along the child axis and multiplied into every
  child's cell row before the children are summed — its result at the entry `(n, j)` is node `n`'s output row
  `Cert.TreeCell.outRow` at column `j`. The one place the two programs differ is the last: the reference sums the
  gated cell rows, the kernel gates the summed cell row; `Cert.TreeCell.gate_sum` joins them.
-/
import proofs.«111368_j29841432773236_1_alg».proof.Proof.Gen.ReferenceIdeal
import proofs.«111368_j29841432773236_1_alg».proof.Proof.Cell
import proofs.«111368_j29841432773236_1_alg».proof.Proof.LibMaxMiddle
import proofs.«111368_j29841432773236_1_alg».proof.Proof.LibSumMiddle
import proofs.«111368_j29841432773236_1_alg».proof.Proof.LibConcat2
import proofs.«111368_j29841432773236_1_alg».proof.Proof.LibPlainDot
import proofs.«111368_j29841432773236_1_alg».proof.Proof.LibBroadcastInDim
import proofs.«111368_j29841432773236_1_alg».proof.Proof.LibColSlice
import proofs.«111368_j29841432773236_1_alg».proof.Proof.LibSpreadMiddle
import Idealize.ShloMosaic.Lib.IdealHost
import Idealize.ShloMosaic.Lib.Pipeline.Value
import Idealize.ShloMosaic.Lib.ValueIdx
import Idealize.ShloMosaic.PureOps.Ideal.Laws

set_option maxRecDepth 400000

open scoped BigOperators

noncomputable section

namespace Cert.ReferenceIdeal.Stages

open Cert.ReferenceIdeal Cert.ReferenceIdeal.Gen Idealize.ShloMosaic Idealize.ShloMosaic.ValueIdx Cert.TreeCell

/-- The middle axis of `[32768, 8, 256]` reduces into `[32768, 256]`. -/
theorem red : S32768x8x256.Reduces [1] S32768x256 := by decide

theorem plain_f : PlainDot.IsPlain dot_S32768x512_S512x256_S32768x256_1_0_0_1_n_n := ⟨rfl, rfl, rfl, rfl, rfl, rfl⟩
theorem plain_iou : PlainDot.IsPlain dot_S32768x512_S512x768_S32768x768_1_0_0_1_n_n := ⟨rfl, rfl, rfl, rfl, rfl, rfl⟩

/-- The combined array: every node's children's sums beside its children's maxima. -/
def combArr (H : FVec Ideal S32768x8x256 .f32) : FVec Ideal S32768x512 .f32 :=
  concatenate S32768x512 1
    [⟨S32768x256, Host.reduceAdd (F := Ideal) H (constant (F := Ideal) S_ .f32 0x00000000#32) reducesTo_S32768x8x256_S32768x256_d1 h_S_⟩,
     ⟨S32768x256, Host.reduce (FloatOps.maximumf (F := Ideal) (φ := .f32)) H (constant (F := Ideal) S_ .f32 0xFF800000#32) reducesTo_S32768x8x256_S32768x256_d1 h_S_⟩]
    concatenates_S32768x256_S32768x256_S32768x512_d1

theorem combArr_read (H : FVec Ideal S32768x8x256 .f32) (n : Fin 32768) (k : Fin 512) :
    combArr H (ix2 n k) = comb (fun q k => H (ix3 n q k)) k := by
  unfold combArr comb
  by_cases hk : k.val < 256
  · rw [dif_pos hk]
    refine (Cert.LibConcat2.cols_left _ _ concatenates_S32768x256_S32768x256_S32768x512_d1 n k ⟨k.val, hk⟩ rfl).trans ?_
    refine (Cert.Lib.SumMiddle.hostReduceAdd_middle H _ reducesTo_S32768x8x256_S32768x256_d1 red h_S_ n ⟨k.val, hk⟩).trans ?_
    show Ideal.ofBits .f32 0x00000000#32 + _ = _
    rw [Ideal.ofBits_zero_f32, zero_add]
  · rw [dif_neg hk]
    have hk' : k.val - 256 < 256 := by have := k.isLt; omega
    refine (Cert.LibConcat2.cols_right _ _ concatenates_S32768x256_S32768x256_S32768x512_d1 n k ⟨k.val - 256, hk'⟩
      (by show k.val - 256 + 256 = k.val; omega)).trans ?_
    exact Cert.Lib.MaxMiddle.hostReduce_max_middle H _ reducesTo_S32768x8x256_S32768x256_d1 red h_S_ n ⟨k.val - 256, hk'⟩

/-- The logistic function as the reference spells it. -/
def logi (x : FVec Ideal S32768x256 .f32) : FVec Ideal S32768x256 .f32 :=
  Host.divf (broadcastInDim S32768x256 ![] bcast_S_S32768x256 (constant (F := Ideal) S_ .f32 0x3F800000#32))
    (addf (broadcastInDim S32768x256 ![] bcast_S_S32768x256 (constant (F := Ideal) S_ .f32 0x3F800000#32)) (Host.exp (Host.negf x)))

theorem logi_read (x : FVec Ideal S32768x256 .f32) (i : S32768x256.Idx) : logi x i = Ideal.logistic (x i) := by
  unfold logi
  show Ideal.div (broadcastInDim S32768x256 ![] bcast_S_S32768x256 (constant (F := Ideal) S_ .f32 0x3F800000#32) i)
      (broadcastInDim S32768x256 ![] bcast_S_S32768x256 (constant (F := Ideal) S_ .f32 0x3F800000#32) i + Ideal.exp (-(x i))) = _
  rw [broadcastInDim_scalar_apply]
  exact spelled_logistic (x i)

/-- The forget gate's pre-activations. -/
def fArr (H : FVec Ideal S32768x8x256 .f32) (wfT : FVec Ideal S512x256 .f32) (bf : FVec Ideal S256 .f32) : FVec Ideal S32768x256 .f32 :=
  addf (Host.dotGeneral (F := Ideal) dot_S32768x512_S512x256_S32768x256_1_0_0_1_n_n none (combArr H) wfT)
    (broadcastInDim S32768x256 ![0, 1] bcast_S1x256_S32768x256_0_1 (broadcastInDim S1x256 ![1] bcast_S256_S1x256_1 bf))

theorem fArr_read (H : FVec Ideal S32768x8x256 .f32) (wfT : FVec Ideal S512x256 .f32) (bf : FVec Ideal S256 .f32)
    (n : Fin 32768) (j : Fin 256) :
    fArr H wfT bf (ix2 n j) = lin (comb fun q k => H (ix3 n q k)) (fun k j => wfT (ix2 k j)) (fun j => bf (ix1 j)) j := by
  unfold fArr lin
  show FloatOps.dotGeneral dot_S32768x512_S512x256_S32768x256_1_0_0_1_n_n none .single (combArr H) wfT (ix2 n j)
      + broadcastInDim S32768x256 ![0, 1] bcast_S1x256_S32768x256_0_1 (broadcastInDim S1x256 ![1] bcast_S256_S1x256_1 bf) (ix2 n j) = _
  rw [PlainDot.dotGeneral_apply plain_f none .single _ _ n j, ValueLayout.bcast_1n_rn_apply _ _ n j,
    ValueLayout.bcast_n_1n_apply _ bf 0 j]
  refine congrArg (· + _) (Finset.sum_congr rfl fun k _ => ?_)
  rw [combArr_read]

/-- The input / output / update pre-activations. -/
def iouArr (H : FVec Ideal S32768x8x256 .f32) (wiouT : FVec Ideal S512x768 .f32) (biou : FVec Ideal S1x768 .f32) : FVec Ideal S32768x768 .f32 :=
  addf (Host.dotGeneral (F := Ideal) dot_S32768x512_S512x768_S32768x768_1_0_0_1_n_n none (combArr H) wiouT)
    (broadcastInDim S32768x768 ![0, 1] bcast_S1x768_S32768x768_0_1 biou)

theorem iouArr_read (H : FVec Ideal S32768x8x256 .f32) (wiouT : FVec Ideal S512x768 .f32) (biou : FVec Ideal S1x768 .f32)
    (n : Fin 32768) (j : Fin 768) :
    iouArr H wiouT biou (ix2 n j)
      = lin (comb fun q k => H (ix3 n q k)) (fun k j => wiouT (ix2 k j)) (fun j => biou (ix2 (0 : Fin 1) j)) j := by
  unfold iouArr lin
  show FloatOps.dotGeneral dot_S32768x512_S512x768_S32768x768_1_0_0_1_n_n none .single (combArr H) wiouT (ix2 n j)
      + broadcastInDim S32768x768 ![0, 1] bcast_S1x768_S32768x768_0_1 biou (ix2 n j) = _
  rw [PlainDot.dotGeneral_apply plain_iou none .single _ _ n j, ValueLayout.bcast_1n_rn_apply _ biou n j]
  refine congrArg (· + _) (Finset.sum_congr rfl fun k _ => ?_)
  rw [combArr_read]

/-- Every child's cell row weighted by the node's forget gate, summed over the children. -/
def caggArr (H C : FVec Ideal S32768x8x256 .f32) (wfT : FVec Ideal S512x256 .f32) (bf : FVec Ideal S256 .f32) : FVec Ideal S32768x256 .f32 :=
  Host.reduceAdd (F := Ideal)
    (mulf (broadcastInDim S32768x8x256 ![0, 1, 2] bcast_S32768x1x256_S32768x8x256_0_1_2
      (broadcastInDim S32768x1x256 ![0, 2] bcast_S32768x256_S32768x1x256_0_2 (logi (fArr H wfT bf)))) C)
    (constant (F := Ideal) S_ .f32 0x00000000#32) reducesTo_S32768x8x256_S32768x256_d1 h_S_

theorem caggArr_read (H C : FVec Ideal S32768x8x256 .f32) (wfT : FVec Ideal S512x256 .f32) (bf : FVec Ideal S256 .f32)
    (n : Fin 32768) (j : Fin 256) :
    caggArr H C wfT bf (ix2 n j)
      = Ideal.logistic (lin (comb fun q k => H (ix3 n q k)) (fun k j => wfT (ix2 k j)) (fun j => bf (ix1 j)) j)
          * ∑ q : Fin 8, C (ix3 n q j) := by
  unfold caggArr
  refine (Cert.Lib.SumMiddle.hostReduceAdd_middle _ _ reducesTo_S32768x8x256_S32768x256_d1 red h_S_ n j).trans ?_
  have e : ∀ q : Fin 8,
      mulf (broadcastInDim S32768x8x256 ![0, 1, 2] bcast_S32768x1x256_S32768x8x256_0_1_2
        (broadcastInDim S32768x1x256 ![0, 2] bcast_S32768x256_S32768x1x256_0_2 (logi (fArr H wfT bf)))) C (ix3 n q j)
      = Ideal.logistic (lin (comb fun q k => H (ix3 n q k)) (fun k j => wfT (ix2 k j)) (fun j => bf (ix1 j)) j)
          * C (ix3 n q j) := fun q => by
    show broadcastInDim S32768x8x256 ![0, 1, 2] bcast_S32768x1x256_S32768x8x256_0_1_2
        (broadcastInDim S32768x1x256 ![0, 2] bcast_S32768x256_S32768x1x256_0_2 (logi (fArr H wfT bf))) (ix3 n q j) * C (ix3 n q j) = _
    rw [Cert.Lib.SpreadMiddle.spread_addMiddle_apply, logi_read, fArr_read]
  refine (congrArg (_ + ·) (Finset.sum_congr rfl fun q _ => e q)).trans ?_
  exact gate_sum _ fun q => C (ix3 n q j)

/-- The new cell states. -/
def cellArr (H C : FVec Ideal S32768x8x256 .f32) (wfT : FVec Ideal S512x256 .f32) (bf : FVec Ideal S256 .f32)
    (wiouT : FVec Ideal S512x768 .f32) (biou : FVec Ideal S1x768 .f32) : FVec Ideal S32768x256 .f32 :=
  addf (mulf (logi (extractStridedSlice S32768x256 ![0, 0] (iouArr H wiouT biou) slices_S32768x768_S32768x256_0_0))
      (Host.tanh (extractStridedSlice S32768x256 ![0, 512] (iouArr H wiouT biou) slices_S32768x768_S32768x256_0_512)))
    (caggArr H C wfT bf)

theorem cellArr_read (H C : FVec Ideal S32768x8x256 .f32) (wfT : FVec Ideal S512x256 .f32) (bf : FVec Ideal S256 .f32)
    (wiouT : FVec Ideal S512x768 .f32) (biou : FVec Ideal S1x768 .f32) (n : Fin 32768) (j : Fin 256) :
    cellArr H C wfT bf wiouT biou (ix2 n j)
      = cell (comb fun q k => H (ix3 n q k)) (fun q k => C (ix3 n q k)) (fun k j => wfT (ix2 k j)) (fun j => bf (ix1 j))
          (fun k j => wiouT (ix2 k j)) (fun j => biou (ix2 (0 : Fin 1) j)) j := by
  unfold cellArr cell
  show logi (extractStridedSlice S32768x256 ![0, 0] (iouArr H wiouT biou) _) (ix2 n j)
        * Ideal.tanh (extractStridedSlice S32768x256 ![0, 512] (iouArr H wiouT biou) _ (ix2 n j))
      + caggArr H C wfT bf (ix2 n j) = _
  rw [logi_read,
    Cert.Lib.ColSlice.cols_apply 0 (iouArr H wiouT biou) _ n j ⟨j.val, by have := j.isLt; omega⟩ (Nat.zero_add _).symm,
    Cert.Lib.ColSlice.cols_apply 512 (iouArr H wiouT biou) _ n j ⟨j.val + 512, by have := j.isLt; omega⟩ (Nat.add_comm _ _),
    iouArr_read, iouArr_read, caggArr_read]

/-- The new hidden states. -/
def hiddenArr (H C : FVec Ideal S32768x8x256 .f32) (wfT : FVec Ideal S512x256 .f32) (bf : FVec Ideal S256 .f32)
    (wiouT : FVec Ideal S512x768 .f32) (biou : FVec Ideal S1x768 .f32) : FVec Ideal S32768x256 .f32 :=
  mulf (logi (extractStridedSlice S32768x256 ![0, 256] (iouArr H wiouT biou) slices_S32768x768_S32768x256_0_256))
    (Host.tanh (cellArr H C wfT bf wiouT biou))

theorem hiddenArr_read (H C : FVec Ideal S32768x8x256 .f32) (wfT : FVec Ideal S512x256 .f32) (bf : FVec Ideal S256 .f32)
    (wiouT : FVec Ideal S512x768 .f32) (biou : FVec Ideal S1x768 .f32) (n : Fin 32768) (j : Fin 256) :
    hiddenArr H C wfT bf wiouT biou (ix2 n j)
      = Cert.TreeCell.hidden (comb fun q k => H (ix3 n q k)) (fun q k => C (ix3 n q k)) (fun k j => wfT (ix2 k j))
          (fun j => bf (ix1 j)) (fun k j => wiouT (ix2 k j)) (fun j => biou (ix2 (0 : Fin 1) j)) j := by
  unfold hiddenArr Cert.TreeCell.hidden
  show logi (extractStridedSlice S32768x256 ![0, 256] (iouArr H wiouT biou) _) (ix2 n j)
        * Ideal.tanh (cellArr H C wfT bf wiouT biou (ix2 n j)) = _
  rw [logi_read,
    Cert.Lib.ColSlice.cols_apply 256 (iouArr H wiouT biou) _ n j ⟨j.val + 256, by have := j.isLt; omega⟩ (Nat.add_comm _ _),
    iouArr_read, cellArr_read]

/-- The reference's result array: hidden states beside cell states. -/
def outArr (H C : FVec Ideal S32768x8x256 .f32) (wfT : FVec Ideal S512x256 .f32) (bf : FVec Ideal S256 .f32)
    (wiouT : FVec Ideal S512x768 .f32) (biou : FVec Ideal S1x768 .f32) : FVec Ideal S32768x512 .f32 :=
  concatenate S32768x512 1 [⟨S32768x256, hiddenArr H C wfT bf wiouT biou⟩, ⟨S32768x256, cellArr H C wfT bf wiouT biou⟩]
    concatenates_S32768x256_S32768x256_S32768x512_d1

/-- The reference's result array is `G`: row `n` is node `n`'s output row. -/
theorem outArr_eq (H C : FVec Ideal S32768x8x256 .f32) (wfT : FVec Ideal S512x256 .f32) (bf : FVec Ideal S256 .f32)
    (wiouT : FVec Ideal S512x768 .f32) (biou : FVec Ideal S1x768 .f32) :
    outArr H C wfT bf wiouT biou = G H C wfT bf wiouT biou := by
  funext i
  obtain ⟨n, j, rfl⟩ : ∃ (n : Fin 32768) (j : Fin 512), i = ix2 n j := ⟨i 0, i 1, eq_ix2 i⟩
  show outArr H C wfT bf wiouT biou (ix2 n j)
    = outRow (fun q k => H (ix3 n q k)) (fun q k => C (ix3 n q k)) (fun k j => wfT (ix2 k j)) (fun j => bf (ix1 j))
        (fun k j => wiouT (ix2 k j)) (fun j => biou (ix2 (0 : Fin 1) j)) j
  unfold outArr outRow
  by_cases hj : j.val < 256
  · rw [dif_pos hj]
    refine (Cert.LibConcat2.cols_left _ _ concatenates_S32768x256_S32768x256_S32768x512_d1 n j ⟨j.val, hj⟩ rfl).trans ?_
    exact hiddenArr_read H C wfT bf wiouT biou n ⟨j.val, hj⟩
  · rw [dif_neg hj]
    have hj' : j.val - 256 < 256 := by have := j.isLt; omega
    refine (Cert.LibConcat2.cols_right _ _ concatenates_S32768x256_S32768x256_S32768x512_d1 n j ⟨j.val - 256, hj'⟩
      (by show j.val - 256 + 256 = j.val; omega)).trans ?_
    exact cellArr_read H C wfT bf wiouT biou n ⟨j.val - 256, hj'⟩

end Cert.ReferenceIdeal.Stages

end
-- ==== Proof.RefResult.lean ====
/-
  The reference run's result is the staged array.

  The run of the reference states its result as one composed term of the six arguments. That term is, operation for
  operation, the staged array `Stages.outArr` of the two mailboxes, the two weight matrices transposed, and the two
  bias rows: the stages only give names to the term's parts. With `Stages.outArr_eq`, the reference's result is
  `Cert.TreeCell.G` of those arrays.
-/
import proofs.«111368_j29841432773236_1_alg».proof.Proof.RefRun
import proofs.«111368_j29841432773236_1_alg».proof.Proof.RefValue

noncomputable section

namespace Cert.ReferenceIdeal.Stages

open Cert.ReferenceIdeal Cert.ReferenceIdeal.Gen Idealize.ShloMosaic Idealize.ShloMosaic.TcCoe Idealize.SL.Sem Cert.TreeCell

variable (m : (ℓ : Loc nD τ sig) → Buf (Elt Ideal) ℓ)

/-- The result array as the arguments determine it. -/
abbrev result (c : Dev nD) : S32768x512.Idx → EReal :=
  G (m ((c.tc : Thread nD τ).loc main_arg0)) (m ((c.tc : Thread nD τ).loc main_arg1))
    (transpose S512x256 [1, 0] (m ((c.tc : Thread nD τ).loc main_arg4)) transposes_S256x512_S512x256_1_0)
    (m ((c.tc : Thread nD τ).loc main_arg5))
    (transpose S512x768 [1, 0] (m ((c.tc : Thread nD τ).loc main_arg2)) transposes_S768x512_S512x768_1_0)
    (m ((c.tc : Thread nD τ).loc main_arg3))

set_option maxRecDepth 100000 in
/-- The run's composed term is the staged array of the arguments. -/
theorem res_eq_outArr (c : Dev nD) :
    Cert.ReferenceIdeal.Value.res_main_v42 (F := Ideal) m c
      = outArr (m ((c.tc : Thread nD τ).loc main_arg0)) (m ((c.tc : Thread nD τ).loc main_arg1))
          (transpose S512x256 [1, 0] (m ((c.tc : Thread nD τ).loc main_arg4)) transposes_S256x512_S512x256_1_0)
          (m ((c.tc : Thread nD τ).loc main_arg5))
          (transpose S512x768 [1, 0] (m ((c.tc : Thread nD τ).loc main_arg2)) transposes_S768x512_S512x768_1_0)
          (m ((c.tc : Thread nD τ).loc main_arg3)) := by
  unfold Cert.ReferenceIdeal.Value.res_main_v42 outArr hiddenArr cellArr caggArr logi fArr iouArr combArr
  rfl

/-- The reference's result is `G` of the arguments. -/
theorem res_eq (c : Dev nD) : Cert.ReferenceIdeal.Value.res_main_v42 (F := Ideal) m c = result m c :=
  (res_eq_outArr m c).trans (outArr_eq _ _ _ _ _ _)

end Cert.ReferenceIdeal.Stages

end
-- ==== Proof.lean ====
/-
  A child-sum tree LSTM cell over 32768 nodes of eight children each: the tiled kernel against the whole-array
  reference, over the extended reals.

  Both programs compute, for every node `n`, the node's output row `Cert.TreeCell.outRow` of its eight children's hidden
  and cell rows (Proof/Cell.lean): the children's hidden rows summed and maximised into a combined row of 512 entries;
  two affine maps of that row (the weights transposed on the host in both programs); three logistic gates, two
  hyperbolic tangents; hidden entries beside cell entries. So both result arrays are `Cert.TreeCell.G` of the six
  arguments.
  * The kernel handles 512 nodes per grid point. What its body stores at an entry is the node's output row
    (Proof/KernelBody.lean), so each point writes one block of `G`, and the 64 blocks cover the array
    (Proof/KernelBlocks.lean). Its rounding of the combined row and of the weights to a narrower format is the
    identity over the extended reals, and its matrix products into a zero accumulator are plain sums.
  * The reference's result, stage by stage, is the same row (Proof/RefValue.lean, Proof/RefResult.lean). It spells the
    logistic function as one over one plus the exponential of the negation, which is the logistic function; and it
    weights every child's cell row by the forget gate before summing the children, where the kernel sums first and
    weights once. A logistic value is a real number in [0, 1] at every extended real, and a non-negative finite factor
    distributes over a sum of extended reals, so the two agree whatever the cell entries are: the proof never needs
    the inputs to be finite.
  The three frames are the generated ones (the reference's is its run with the result dropped); the kernel's
  idealization rewrote nothing, so that conjunct is trivial.
-/
import proofs.«111368_j29841432773236_1_alg».proof.Defs
import proofs.«111368_j29841432773236_1_alg».proof.Proof.Gen.Kernel
import proofs.«111368_j29841432773236_1_alg».proof.Proof.Gen.Kernel.Skeleton
import proofs.«111368_j29841432773236_1_alg».proof.Proof.Gen.Kernel.Launch
import proofs.«111368_j29841432773236_1_alg».proof.Proof.Gen.Kernel.Points
import proofs.«111368_j29841432773236_1_alg».proof.Proof.Gen.Kernel.Frame
import proofs.«111368_j29841432773236_1_alg».proof.Proof.Gen.KernelIdeal
import proofs.«111368_j29841432773236_1_alg».proof.Proof.Gen.KernelIdeal.Skeleton
import proofs.«111368_j29841432773236_1_alg».proof.Proof.Gen.KernelIdeal.Launch
import proofs.«111368_j29841432773236_1_alg».proof.Proof.Gen.KernelIdeal.Points
import proofs.«111368_j29841432773236_1_alg».proof.Proof.Gen.KernelIdeal.Frame
import proofs.«111368_j29841432773236_1_alg».proof.Proof.Gen.KernelIdeal.Value
import proofs.«111368_j29841432773236_1_alg».proof.Proof.Gen.ReferenceIdeal
import proofs.«111368_j29841432773236_1_alg».proof.Proof.Gen.Pre_finite_inputs
import proofs.«111368_j29841432773236_1_alg».proof.Proof.RefRun
import proofs.«111368_j29841432773236_1_alg».proof.Proof.KernelBlocks
import proofs.«111368_j29841432773236_1_alg».proof.Proof.RefResult
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both result arrays are `G` of the arguments: the kernel's block by block, the reference's stage by stage; on
    memories that agree on the arguments they are one array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Stages.res_eq m' c).trans ?_
  obtain ⟨h0, h1, h2, h3, h4, h5⟩ := hagree c
  unfold Cert.ReferenceIdeal.Stages.result Cert.KernelIdeal.Blocks.result
  rw [h0, h1, h2, h3, h4, h5] <;> rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
